-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000 : Shape := ⟨1, ![1600000]⟩
abbrev S32x32 : Shape := ⟨2, ![32, 32]⟩
abbrev S32 : Shape := ⟨1, ![32]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S1600000x32 .f32) (main_arg1 : IVec S1600000 32) (main_arg2 : IVec S1600000 32) (main_arg3 : FVec F S32x32 .f32) (main_arg4 : FVec F S32 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S1600000x32 : Shape := ⟨2, ![1600000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S8000x32 : Shape := ⟨2, ![8000, 32]⟩
abbrev S1x32 : Shape := ⟨2, ![1, 32]⟩

abbrev nBuf : Space → Nat
  | .hbm => 53
  | .vmem => 8
  | .smem => 0
  | _ => 0

abbrev bufTy : (tb : Table) → Fin (tcTables nBuf tb) → BufTy
  | .hbm, ⟨0, _⟩ => ⟨S1600000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x32, .f32⟩
  | .hbm, ⟨13, _⟩ => ⟨S1600000x1, .i32⟩
  | .hbm, ⟨14, _⟩ => ⟨S50000x32, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x32, .f32⟩
  | .hbm, ⟨20, _⟩ => ⟨S50000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .f32⟩
  | .hbm, ⟨30, _⟩ => ⟨S_, .f32⟩
  | .hbm, ⟨31, _⟩ => ⟨S50000x32, .f32⟩
  | .hbm, ⟨32, _⟩ => ⟨S1600000x1, .i32⟩
  | .hbm, ⟨33, _⟩ => ⟨S50000x32, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x32, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x32, .f32⟩
  | .hbm, ⟨52, _⟩ => ⟨S1600000x32, .f32⟩
  | .local _ .vmem, ⟨0, _⟩ => ⟨S8000x32, .f32⟩
  | .local _ .vmem, ⟨1, _⟩ => ⟨S8000x32, .f32⟩
  | .local _ .vmem, ⟨2, _⟩ => ⟨S8000x32, .f32⟩
  | .local _ .vmem, ⟨3, _⟩ => ⟨S8000x32, .f32⟩
  | .local _ .vmem, ⟨4, _⟩ => ⟨S32x32, .f32⟩
  | .local _ .vmem, ⟨5, _⟩ => ⟨S32, .f32⟩
  | .local _ .vmem, ⟨6, _⟩ => ⟨S8000x32, .f32⟩
  | .local _ .vmem, ⟨7, _⟩ => ⟨S8000x32, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S8000x32_S32x32_S8000x32_1_0_0_1_n_n_wf : DotDims.WF S8000x32 S32x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x32.size a ≤ S1600000x32.size a
  hwx0_4 : ∀ i : grid0.Coords, EltTy.bits .f32 = 32 ∨ (Rect.block (s := S1600000x32) S8000x32.size (cc0_transform_4 i) (hinb0_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf

abbrev win0_0 : Pipeline.Window sig grid0 :=
  Pipeline.Window.ofSpec (Memref.whole main_v28) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S8000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S1x32 : Shape := ⟨2, ![1, 32]⟩

abbrev nBuf : Space → Nat
  | .hbm => 61
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x32, .f32⟩
  | .hbm, ⟨13, _⟩ => ⟨S1600000x1, .i32⟩
  | .hbm, ⟨14, _⟩ => ⟨S50000x32, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x32, .f32⟩
  | .hbm, ⟨20, _⟩ => ⟨S50000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .f32⟩
  | .hbm, ⟨30, _⟩ => ⟨S_, .f32⟩
  | .hbm, ⟨31, _⟩ => ⟨S50000x32, .f32⟩
  | .hbm, ⟨32, _⟩ => ⟨S1600000x1, .i32⟩
  | .hbm, ⟨33, _⟩ => ⟨S50000x32, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x32, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x32, .f32⟩
  | .hbm, ⟨52, _⟩ => ⟨S1600000x32, .f32⟩
  | .hbm, ⟨53, _⟩ => ⟨S_, .f32⟩
  | .hbm, ⟨54, _⟩ => ⟨S1600000x32, .f32⟩
  | .hbm, ⟨55, _⟩ => ⟨S1600000x32, .f32⟩
  | .hbm, ⟨56, _⟩ => ⟨S32x32, .f32⟩
  | .hbm, ⟨57, _⟩ => ⟨S1600000x32, .f32⟩
  | .hbm, ⟨58, _⟩ => ⟨S1x32, .f32⟩
  | .hbm, ⟨59, _⟩ => ⟨S1600000x32, .f32⟩
  | .hbm, ⟨60, _⟩ => ⟨S1600000x32, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S_S1600000x32 : S_.BroadcastsInDim S1600000x32 (![] : Fin 0 → Fin S1600000x32.rank)
  transposes_S32x32_S32x32_1_0 : S32x32.Transposes [1, 0] S32x32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S1600000x32_S32x32_S1600000x32_1_0_0_1_n_n_wf : DotDims.WF S1600000x32 S32x32 S1600000x32 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf

class Facts : Prop extends Facts₀ where

variable [Facts]
-- ==== Proof.EdgeProjection.lean ====
/-
  What the certificate's two programs both compute, as one function of four arrays: the edge projection.

  For an edge `e` and an output feature `j`, with `gs` and `gd` the rows gathered at the edge's two endpoints, `w` the
  weight matrix and `b` the bias:

      out[e, j] = (∑ₖ (½ · (gs[e, k] + gd[e, k])) · w[j, k]) + b[j]        (k over the 32 input features)

  on the extended reals. It is stated for any number of rows, so that one definition describes a tile of rows and the
  whole edge array; a tile of it is the same function of the tile's rows, because an entry reads only its own row of
  `gs` and `gd`.
-/
import Idealize.ShloMosaic.PureOps.Ideal
import Idealize.ShloMosaic.Lib.ValueIdx

noncomputable section

namespace Cert.EdgeProjection

open Idealize.ShloMosaic Idealize.ShloMosaic.ValueIdx

/-- The weight ½ of the endpoint mean, as both programs spell it: the binary32 word `0x3F000000`. The same word stands on
    both sides, so it is never evaluated. -/
abbrev half : EReal := Ideal.ofBits .f32 0x3F000000#32

/-- One entry of the projection: row `e`'s endpoint mean, contracted with row `j` of the weights over the 32 input
    features, plus the bias at `j`. -/
def entry {rows : Nat} (gs gd : (⟨2, ![rows, 32]⟩ : Shape).Idx → EReal) (w : (⟨2, ![32, 32]⟩ : Shape).Idx → EReal)
    (b : (⟨1, ![32]⟩ : Shape).Idx → EReal) (e : Fin rows) (j : Fin 32) : EReal :=
  (∑ k : Fin 32, (half * (gs (ix2 e k) + gd (ix2 e k))) * w (ix2 j k)) + b (ix1 j)

/-- The projection of a whole array of rows, index by index. -/
def projected {rows : Nat} (gs gd : (⟨2, ![rows, 32]⟩ : Shape).Idx → EReal) (w : (⟨2, ![32, 32]⟩ : Shape).Idx → EReal)
    (b : (⟨1, ![32]⟩ : Shape).Idx → EReal) : (⟨2, ![rows, 32]⟩ : Shape).Idx → EReal :=
  fun i => entry gs gd w b (i 0) (i 1)

theorem projected_ix2 {rows : Nat} (gs gd : (⟨2, ![rows, 32]⟩ : Shape).Idx → EReal) (w : (⟨2, ![32, 32]⟩ : Shape).Idx → EReal)
    (b : (⟨1, ![32]⟩ : Shape).Idx → EReal) (e : Fin rows) (j : Fin 32) :
    projected gs gd w b (ix2 e j) = entry gs gd w b e j := rfl

/-- An entry reads only row `e` of `gs` and `gd`, row `j` of the weights and entry `j` of the bias: two families of arrays
    (of any heights) that agree there give the same entry. This is what lets a tile of rows be projected on its own. -/
theorem entry_congr {rows rows' : Nat} (gs gd : (⟨2, ![rows, 32]⟩ : Shape).Idx → EReal)
    (gs' gd' : (⟨2, ![rows', 32]⟩ : Shape).Idx → EReal) (w w' : (⟨2, ![32, 32]⟩ : Shape).Idx → EReal)
    (b b' : (⟨1, ![32]⟩ : Shape).Idx → EReal) (e : Fin rows) (e' : Fin rows') (j j' : Fin 32)
    (hs : ∀ k : Fin 32, gs (ix2 e k) = gs' (ix2 e' k)) (hd : ∀ k : Fin 32, gd (ix2 e k) = gd' (ix2 e' k))
    (hw : ∀ k : Fin 32, w (ix2 j k) = w' (ix2 j' k)) (hb : b (ix1 j) = b' (ix1 j')) :
    entry gs gd w b e j = entry gs' gd' w' b' e' j' := by
  unfold entry
  simp only [hs, hd, hw, hb]

end Cert.EdgeProjection

end
-- ==== Proof.TileProjection.lean ====
/-
  What the kernel body stores, entry by entry, on the extended reals.

  On one tile of 8000 edges the body adds the two gathered tiles, scales the sum by ½, multiplies the result with the
  TRANSPOSED weight matrix into a zero accumulator and adds the bias row to every row of the product. Changing a value's
  float format is the identity here, so the two narrowings before the product drop out, and the product into zero is the
  plain sum over the 32 input features. Read at row `p` and column `q` the stored value is therefore

      (∑ₖ (½ · (x0[p, k] + x1[p, k])) · x2[q, k]) + x3[q],

  the edge projection's entry (`Cert.EdgeProjection.entry`) of the four loaded blocks: the transposed weights at
  `(k, q)` are the weights at `(q, k)`.
-/
import proofs.«166779_j27986006901490_1_alg».proof.Proof.Gen.KernelIdeal.Skeleton
import proofs.«166779_j27986006901490_1_alg».proof.Proof.EdgeProjection
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The tile product's operand indices

At output index `(p, q)` and contraction index `k` the left operand is read at `(p, k)` and the right at `(k, q)`: one
fact per operand axis. -/

theorem lhs_axis0 (i : S8000x32.Idx) (c : dot_S8000x32_S32x32_S8000x32_1_0_0_1_n_n.contr.Idx) :
    (dot_S8000x32_S32x32_S8000x32_1_0_0_1_n_n.lhsIdx i c 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl

theorem lhs_axis1 (i : S8000x32.Idx) (c : dot_S8000x32_S32x32_S8000x32_1_0_0_1_n_n.contr.Idx) :
    (dot_S8000x32_S32x32_S8000x32_1_0_0_1_n_n.lhsIdx i c 1).val = (c ⟨0, by decide⟩).val :=
  dot_S8000x32_S32x32_S8000x32_1_0_0_1_n_n.lhsIdx_val_of_single rfl i c

theorem rhs_axis0 (i : S8000x32.Idx) (c : dot_S8000x32_S32x32_S8000x32_1_0_0_1_n_n.contr.Idx) :
    (dot_S8000x32_S32x32_S8000x32_1_0_0_1_n_n.rhsIdx i c 0).val = (c ⟨0, by decide⟩).val :=
  dot_S8000x32_S32x32_S8000x32_1_0_0_1_n_n.rhsIdx_val_of_single rfl i c

theorem rhs_axis1 (i : S8000x32.Idx) (c : dot_S8000x32_S32x32_S8000x32_1_0_0_1_n_n.contr.Idx) :
    (dot_S8000x32_S32x32_S8000x32_1_0_0_1_n_n.rhsIdx i c 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- The tile product into a zero accumulator, at `(p, q)`: the sum over the 32 input features of the left operand's row
    `p` against the right operand's column `q`. -/
theorem product_apply (l : FVec Ideal S8000x32 .bf16) (r : FVec Ideal S32x32 .bf16) (p : Fin 8000) (q : Fin 32) :
    matmul dot_S8000x32_S32x32_S8000x32_1_0_0_1_n_n none l r (constant (F := Ideal) S8000x32 .f32 0x00000000#32) (ix2 p q)
      = ∑ k : Fin 32, l (ix2 p k) * r (ix2 k q) := by
  show FloatOps.matmul dot_S8000x32_S32x32_S8000x32_1_0_0_1_n_n none l r (constant (F := Ideal) S8000x32 .f32 0x00000000#32) (ix2 p q) = _
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q) ((contrEquiv1 dot_S8000x32_S32x32_S8000x32_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S8000x32_S32x32_S8000x32_1_0_0_1_n_n.rhsIdx (ix2 p q) ((contrEquiv1 dot_S8000x32_S32x32_S8000x32_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-- The value the body stores, at row `p` and column `q` of the tile, is the edge projection's entry of the four loaded
    blocks. -/
theorem stored_apply (x0 x1 : Vec Ideal S8000x32 .f32) (x2 : Vec Ideal S32x32 .f32) (x3 : Vec Ideal S32 .f32)
    (p : Fin 8000) (q : Fin 32) :
    k0_pay1 (F := Ideal) x0 x1 x2 x3 (ix2 p q) = Cert.EdgeProjection.entry x0 x1 x2 x3 p q := by
  unfold k0_pay1 Cert.EdgeProjection.entry
  rw [addf_apply, product_apply, broadcastTo_1b_ab_apply, shapeCast_a_1a_apply]
  refine congrArg (· + x3 (ix1 q)) (Finset.sum_congr rfl fun k _ => ?_)
  rw [truncf_apply, mulf_apply, broadcast_apply, addf_apply, shapeCast_self, shapeCast_self, transpose_ix2_apply, truncf_apply]
  rfl

/-- So the stored tile is the projection of the loaded blocks. -/
theorem stored_eq (x0 x1 : Vec Ideal S8000x32 .f32) (x2 : Vec Ideal S32x32 .f32) (x3 : Vec Ideal S32 .f32) :
    k0_pay1 (F := Ideal) x0 x1 x2 x3 = Cert.EdgeProjection.projected x0 x1 x2 x3 := by
  funext i
  obtain ⟨p, q, rfl⟩ : ∃ (p : Fin 8000) (q : Fin 32), i = ix2 p q := ⟨i 0, i 1, eq_ix2 i⟩
  rw [stored_apply, Cert.EdgeProjection.projected_ix2]

end Cert.KernelIdeal.Tile

end
-- ==== Proof.KernelRows.lean ====
/-
  The kernel's result array, as one function of the arrays its region finds.

  The grid has 200 points. Point `t` stages rows `8000·t … 8000·t + 7999` of the two gathered arrays, the whole weight
  matrix and the whole bias, and writes rows `8000·t … 8000·t + 7999` of the result. What it writes is the edge
  projection of its four blocks (the tile lemma), and an entry of the projection reads only its own row of the gathered
  arrays, so block `t` of the result is block `t` of the projection of the WHOLE arrays. The 200 blocks tile the
  1 600 000 rows, so the result array is that projection.
-/
import proofs.«166779_j27986006901490_1_alg».proof.Proof.Gen.KernelIdeal.Frame
import proofs.«166779_j27986006901490_1_alg».proof.Proof.Gen.KernelIdeal.Value
import proofs.«166779_j27986006901490_1_alg».proof.Proof.TileProjection
import Idealize.ShloMosaic.Lib.Pipeline.Value
import Idealize.ShloMosaic.Lib.Tactic

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, by their literal types -/

/-- The rows gathered at the edges' sources, as the region finds them. -/
abbrev srcRows (c : Dev nD) : Vec Ideal S1600000x32 .f32 := V m c main_v28
/-- The rows gathered at the edges' destinations. -/
abbrev dstRows (c : Dev nD) : Vec Ideal S1600000x32 .f32 := V m c main_v35
/-- The weight matrix. -/
abbrev weights (c : Dev nD) : Vec Ideal S32x32 .f32 := V m c main_arg3
/-- The bias. -/
abbrev bias (c : Dev nD) : Vec Ideal S32 .f32 := V m c main_arg4

/-- Point `t`'s block of each input window. -/
abbrev srcTile (c : Dev nD) (t : Fin cfg0.N) : Vec Ideal S8000x32 .f32 := iblk m c 0 t
abbrev dstTile (c : Dev nD) (t : Fin cfg0.N) : Vec Ideal S8000x32 .f32 := iblk m c 1 t
abbrev weightTile (c : Dev nD) (t : Fin cfg0.N) : Vec Ideal S32x32 .f32 := iblk m c 2 t
abbrev biasTile (c : Dev nD) (t : Fin cfg0.N) : Vec Ideal S32 .f32 := iblk m c 3 t

/-- The projection of the whole arrays: what the result array ends holding. -/
abbrev result (c : Dev nD) : Vec Ideal S1600000x32 .f32 :=
  Cert.EdgeProjection.projected (srcRows m c) (dstRows m c) (weights m c) (bias m c)

/-! ## Where each window's block lies -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the 200 points: the three row-tiled windows are at block row `t`, column block 0; the
    weights and the bias are always at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-! Reading a block is stated for ANY array in the window's place, so that the arrays the host stretch computed stay
closed terms throughout. -/

/-- Point `t`'s block of the first window holds rows `8000·t …` of the window's array. -/
theorem read_block0 (t : Fin cfg0.N) (X : Vec Ideal S1600000x32 .f32) (x : S8000x32.Idx) (i : S1600000x32.Idx)
    (h0 : (i 0).val = t.val * 8000 + (x 0).val) (h1 : (i 1).val = (x 1).val) :
    ((cfg0.win 0).blk t).view.read (Elt Ideal) X x = X i := by
  obtain ⟨e0, e1, -⟩ := block_index t
  have hemb : ((cfg0.win 0).blk t).view.emb x = i := by
    funext a
    apply Fin.ext
    match a with
    | ⟨0, _⟩ => show win0_0.index t 0 * 8000 + 1 * (x 0).val = (i 0).val; rw [e0, h0]; omega
    | ⟨1, _⟩ => show win0_0.index t 1 * 32 + 1 * (x 1).val = (i 1).val; rw [e1, h1]; omega
  rw [View.read_apply, hemb]
  rfl

/-- The same for the second window. -/
theorem read_block1 (t : Fin cfg0.N) (X : Vec Ideal S1600000x32 .f32) (x : S8000x32.Idx) (i : S1600000x32.Idx)
    (h0 : (i 0).val = t.val * 8000 + (x 0).val) (h1 : (i 1).val = (x 1).val) :
    ((cfg0.win 1).blk t).view.read (Elt Ideal) X x = X i := by
  obtain ⟨-, -, e0, e1, -⟩ := block_index t
  have hemb : ((cfg0.win 1).blk t).view.emb x = i := by
    funext a
    apply Fin.ext
    match a with
    | ⟨0, _⟩ => show win0_1.index t 0 * 8000 + 1 * (x 0).val = (i 0).val; rw [e0, h0]; omega
    | ⟨1, _⟩ => show win0_1.index t 1 * 32 + 1 * (x 1).val = (i 1).val; rw [e1, h1]; omega
  rw [View.read_apply, hemb]
  rfl

/-- The third window's block is its whole array at every point. -/
theorem read_block2 (t : Fin cfg0.N) (X : Vec Ideal S32x32 .f32) (x i : S32x32.Idx)
    (h0 : (i 0).val = (x 0).val) (h1 : (i 1).val = (x 1).val) :
    ((cfg0.win 2).blk t).view.read (Elt Ideal) X x = X i := by
  obtain ⟨-, -, -, -, e0, e1, -⟩ := block_index t
  have hemb : ((cfg0.win 2).blk t).view.emb x = i := by
    funext a
    apply Fin.ext
    match a with
    | ⟨0, _⟩ => show win0_2.index t 0 * 32 + 1 * (x 0).val = (i 0).val; rw [e0, h0]; omega
    | ⟨1, _⟩ => show win0_2.index t 1 * 32 + 1 * (x 1).val = (i 1).val; rw [e1, h1]; omega
  rw [View.read_apply, hemb]
  rfl

/-- So is the fourth's. -/
theorem read_block3 (t : Fin cfg0.N) (X : Vec Ideal S32 .f32) (x i : S32.Idx) (h0 : (i 0).val = (x 0).val) :
    ((cfg0.win 3).blk t).view.read (Elt Ideal) X x = X i := by
  obtain ⟨-, -, -, -, -, -, e0, -⟩ := block_index t
  have hemb : ((cfg0.win 3).blk t).view.emb x = i := by
    funext a
    apply Fin.ext
    match a with
    | ⟨0, _⟩ => show win0_3.index t 0 * 32 + 1 * (x 0).val = (i 0).val; rw [e0, h0]; omega
  rw [View.read_apply, hemb]
  rfl

/-- Row `x` of point `t`'s source tile is row `8000·t + x` of the gathered source rows. -/
theorem srcTile_apply (c : Dev nD) (t : Fin cfg0.N) (x : S8000x32.Idx) (i : S1600000x32.Idx)
    (h0 : (i 0).val = t.val * 8000 + (x 0).val) (h1 : (i 1).val = (x 1).val) :
    srcTile m c t x = srcRows m c i := by
  show iblk m c 0 t x = _
  unfold iblk
  exact read_block0 t (V m c (Pipeline.arrRef spec0 0)) x i h0 h1

/-- The same for the destination tile. -/
theorem dstTile_apply (c : Dev nD) (t : Fin cfg0.N) (x : S8000x32.Idx) (i : S1600000x32.Idx)
    (h0 : (i 0).val = t.val * 8000 + (x 0).val) (h1 : (i 1).val = (x 1).val) :
    dstTile m c t x = dstRows m c i := by
  show iblk m c 1 t x = _
  unfold iblk
  exact read_block1 t (V m c (Pipeline.arrRef spec0 1)) x i h0 h1

/-- Every point stages the whole weight matrix. -/
theorem weightTile_apply (c : Dev nD) (t : Fin cfg0.N) (x i : S32x32.Idx)
    (h0 : (i 0).val = (x 0).val) (h1 : (i 1).val = (x 1).val) :
    weightTile m c t x = weights m c i := by
  show iblk m c 2 t x = _
  unfold iblk
  exact read_block2 t (V m c (Pipeline.arrRef spec0 2)) x i h0 h1

/-- Every point stages the whole bias. -/
theorem biasTile_apply (c : Dev nD) (t : Fin cfg0.N) (x i : S32.Idx) (h0 : (i 0).val = (x 0).val) :
    biasTile m c t x = bias m c i := by
  show iblk m c 3 t x = _
  unfold iblk
  exact read_block3 t (V m c (Pipeline.arrRef spec0 3)) x i h0

/-! ## What a point writes back -/

/-- What is written back of a staged tile is the tile: the result's blocks are never cut at the array's end. -/
theorem cut_apply (t : Fin cfg0.N) (X : Vec Ideal S8000x32 .f32) (j : S8000x32.Idx) :
    (cfg0.win 4).cut (grid0.coords t) X j = X j := rfl

/-- Block `t` of an array in the result's place, read at `j`, is the array at `j`'s place in the array. -/
theorem read_out (t : Fin cfg0.N) (X : Vec Ideal S1600000x32 .f32) (j : S8000x32.Idx) :
    ((cfg0.win 4).blk t).view.read (Elt Ideal) X j = X (((cfg0.win 4).blk t).view.emb j) := by
  rw [View.read_apply]
  rfl

/-- Point `t` writes back block `t` of the projection of the whole arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero2]
  simp only [View.ld_unit_zero (S := S8000x32) zero2, View.ld_unit_zero (S := S32x32) zero2, View.ld_unit_zero (S := S32) zero1]
  rw [Cert.KernelIdeal.Tile.stored_eq]
  obtain ⟨-, -, -, -, -, -, -, e0, e1⟩ := block_index t
  funext j
  rw [cut_apply, read_out]
  have hj0 : (j 0).val < 8000 := (j 0).isLt
  have hj1 : (j 1).val < 32 := (j 1).isLt
  show Cert.EdgeProjection.entry (srcTile m c t) (dstTile m c t) (weightTile m c t) (biasTile m c t) (j 0) (j 1)
      = Cert.EdgeProjection.entry (srcRows m c) (dstRows m c) (weights m c) (bias m c)
          ((((cfg0.win 4).blk t).view.emb j) 0) ((((cfg0.win 4).blk t).view.emb j) 1)
  have r0 : ((((cfg0.win 4).blk t).view.emb j) 0).val = t.val * 8000 + (j 0).val := by
    show win0_4.index t 0 * 8000 + 1 * (j 0).val = _; rw [e0]; omega
  have r1 : ((((cfg0.win 4).blk t).view.emb j) 1).val = (j 1).val := by
    show win0_4.index t 1 * 32 + 1 * (j 1).val = _; rw [e1]; omega
  refine Cert.EdgeProjection.entry_congr _ _ _ _ _ _ _ _ _ _ _ _ (fun k => ?_) (fun k => ?_) (fun k => ?_) ?_
  · exact srcTile_apply m c t _ _ r0 rfl
  · exact dstTile_apply m c t _ _ r0 rfl
  · exact weightTile_apply m c t _ _ r1 rfl
  · exact biasTile_apply m c t _ _ r1

/-! ## The blocks tile the array -/

/-- An index of the result array is in point `t`'s block iff each coordinate is in the block's range on its axis. -/
theorem mem_block (t : Fin cfg0.N) (i : S1600000x32.Idx) :
    i ∈ ((cfg0.win 4).blk t).view.set ↔ ∀ a : Fin 2, win0_4.index t a * S8000x32.size a ≤ (i a).val ∧ (i a).val < win0_4.index t a * S8000x32.size a + S8000x32.size a := by
  show i ∈ ((View.whole main_v36).slice (win0_4.rect t)).set ↔ _
  rw [View.set_slice_whole, Rect.mem_set_unit]
  exact Iff.rfl

/-- Row `r` lies in the block of point `r / 8000`. -/
theorem covered (i : S1600000x32.Idx) :
    ∃ t : Fin cfg0.N, (cfg0.win 4).flush t = true ∧ i ∈ ((cfg0.win 4).blk t).view.set := by
  have hi0 : (i 0).val < 1600000 := (i 0).isLt
  have hi1 : (i 1).val < 32 := (i 1).isLt
  have hN : cfg0.N = 200 := N_0
  let t : Fin cfg0.N := ⟨(i 0).val / 8000, by rw [hN]; omega⟩
  obtain ⟨-, -, -, -, -, -, -, e0, e1⟩ := block_index t
  refine ⟨t, flush0_4 t, ?_⟩
  rw [mem_block]
  intro a
  match a with
  | ⟨0, _⟩ =>
    show win0_4.index t 0 * 8000 ≤ (i 0).val ∧ (i 0).val < win0_4.index t 0 * 8000 + 8000
    rw [e0]; show (i 0).val / 8000 * 8000 ≤ (i 0).val ∧ (i 0).val < (i 0).val / 8000 * 8000 + 8000; omega
  | ⟨1, _⟩ =>
    show win0_4.index t 1 * 32 ≤ (i 1).val ∧ (i 1).val < win0_4.index t 1 * 32 + 32
    rw [e1]; omega

/-- So the result array ends holding the projection of the arrays the region found. -/
theorem final (c : Dev nD) : (dats m 0 c).arrAt 4 cfg0.N = result m c :=
  (dats m 0 c).arrAt_eq_of_cover 4 (result m c) (fun t _ => flushed_eq m c t) covered

/-- The kernel's run, read: the result array at the projection, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩)
    (Cert.KernelIdeal.Value.run_blocks m ρ)

end Cert.KernelIdeal.Rows

end
-- ==== Proof.GatheredRows.lean ====
/-
  The two arrays the kernel's region reads are the reference's two gathered stages.

  Before its one pallas_call the kernel's @main runs, on the host, exactly the reference's first stretch: the in-degree
  and the feature sums scattered to the destination nodes, the mean, the gather at the sources, the second scatter to
  the destinations, and the two gathers of the node features at the edges' sources and destinations. Operation by
  operation the two programs apply the same functions, with the same constants, to the same arguments, so the two arrays
  the region finds are the same terms of the arguments as the reference's stages; neither side's scatters and gathers
  are ever opened.
-/
import proofs.«166779_j27986006901490_1_alg».proof.Proof.Gen.KernelIdeal.Frame
import proofs.«166779_j27986006901490_1_alg».proof.Proof.Gen.ReferenceIdeal.Read
import Idealize.ShloMosaic.Lib.StableHlo.Run

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The rows gathered at the edges' sources: the reference's stage of that name, of the kernel's arguments. -/
theorem src_eq (c : Dev nD) :
    V m c main_v28 = Cert.ReferenceIdeal.Read.val_main_v28 (F := Ideal)
      (m ((c : Thread nD τ).loc main_arg0)) (m ((c : Thread nD τ).loc main_arg1)) (m ((c : Thread nD τ).loc main_arg2)) := by
  show StableHlo.after hostOps0 (fun b => m (c, b)) (Proc.devRef .tc main_v28) = _
  after_results_simp
  rfl

set_option maxRecDepth 8192 in
set_option maxHeartbeats 2000000 in
/-- The rows gathered at the edges' destinations, likewise. -/
theorem dst_eq (c : Dev nD) :
    V m c main_v35 = Cert.ReferenceIdeal.Read.val_main_v35 (F := Ideal)
      (m ((c : Thread nD τ).loc main_arg0)) (m ((c : Thread nD τ).loc main_arg1)) (m ((c : Thread nD τ).loc main_arg2)) := by
  show StableHlo.after hostOps0 (fun b => m (c, b)) (Proc.devRef .tc main_v35) = _
  after_results_simp
  rfl

end Cert.KernelIdeal.Gathered

end
-- ==== Proof.ReferenceProjection.lean ====
/-
  The reference's result, entry by entry, on the extended reals.

  After the two gathers the reference adds the gathered rows, scales by ½, multiplies with the transposed weights
  (a contraction of the 32 input features) and adds the bias broadcast along the rows. Reading its last stage at edge
  `e` and output feature `j` gives

      (∑ₖ (½ · (gs[e, k] + gd[e, k])) · W[j, k]) + b[j],

  the edge projection's entry of the two gathered arrays, the weights and the bias. The gathered arrays stay the opaque
  stages `val_main_v28` and `val_main_v35`: the kernel's host prefix computes the very same two terms.
-/
import proofs.«166779_j27986006901490_1_alg».proof.Proof.Gen.ReferenceIdeal.Read
import proofs.«166779_j27986006901490_1_alg».proof.Proof.EdgeProjection
import Idealize.ShloMosaic.Lib.ValueIdx

noncomputable section

namespace Cert.ReferenceIdeal.Projection

open Cert.ReferenceIdeal Cert.ReferenceIdeal.Read Idealize.ShloMosaic Idealize.ShloMosaic.ValueIdx

/-- The product's left operand at `(e, j)` and feature `k` is read at `(e, k)`. -/
theorem left_index (e : Fin 1600000) (j k : Fin 32) : lidx_main_v40 (ix2 e j) k = ix2 e k :=
  funext fun a => Fin.ext (by match a with | ⟨0, _⟩ => rfl | ⟨1, _⟩ => rfl)

/-- The right operand is the weights transposed: read at `(k, j)`, that is the weights at `(j, k)`. -/
theorem right_index (e : Fin 1600000) (j k : Fin 32) : idx_main_v39 (ridx_main_v40 (ix2 e j) k) = ix2 j k :=
  funext fun a => Fin.ext (by match a with | ⟨0, _⟩ => rfl | ⟨1, _⟩ => rfl)

/-- The bias broadcast along the rows is read at `j`. -/
theorem bias_index (e : Fin 1600000) (j : Fin 32) : idx_main_v41 (idx_main_v42 (ix2 e j)) = ix1 j :=
  funext fun a => Fin.ext (by match a with | ⟨0, _⟩ => rfl)

/-- The reference's last stage is the projection of its two gathered stages, the weights and the bias. -/
theorem result_eq (x0 : (⟨S1600000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal)) :
    val_main_v43 (F := Ideal) x0 x1 x2 x3 x4
      = Cert.EdgeProjection.projected (val_main_v28 (F := Ideal) x0 x1 x2) (val_main_v35 (F := Ideal) x0 x1 x2) x3 x4 := by
  funext i
  obtain ⟨e, j, rfl⟩ : ∃ (e : Fin 1600000) (j : Fin 32), i = ix2 e j := ⟨i 0, i 1, eq_ix2 i⟩
  rw [Cert.EdgeProjection.projected_ix2]
  unfold Cert.EdgeProjection.entry
  rw [val_main_v43_apply, val_main_v40_apply, val_main_v42_apply, val_main_v41_apply, bias_index]
  refine congrArg (· + x4 (ix1 j)) (Finset.sum_congr rfl fun k _ => ?_)
  rw [left_index, val_main_v39_apply, right_index, val_main_v38_apply, val_main_v37_apply, val_main_cst_9_apply,
    val_main_v36_apply]
  rfl

end Cert.ReferenceIdeal.Projection

end
-- ==== Proof.lean ====
/-
  The kernel computes an edge feature for each of 1 600 000 graph edges: node features are first aggregated on the host
  (two scatter-adds to the destination nodes, a mean, a gather at the sources), the aggregated node features are gathered
  at each edge's two endpoints, and a tiled kernel then forms, per edge, half the sum of the two endpoint rows, multiplies
  it with the transposed 32 × 32 weight matrix and adds the bias. The reference does the same with plain array operations.

  Both results are ONE function of the arguments on the extended reals. The host stretch before the kernel is, operation
  by operation, the reference's own first stretch, so the two gathered arrays are the same terms on both sides and are
  never opened (`Gathered`). After them both sides compute, at edge `e` and output feature `j`,

      (∑ₖ (½ · (gs[e, k] + gd[e, k])) · W[j, k]) + b[j]

  (`EdgeProjection`): the reference in one contraction over the whole arrays (`ReferenceProjection`), the kernel 8000
  rows at a time (`TileProjection`: the narrowing of the product's operands is the identity on the extended reals, and a
  product into a zero accumulator is the plain sum), its 200 tiles covering the rows exactly (`KernelRows`). No law of
  arithmetic beyond reading both sums in the same order is needed, so the precondition is never opened.

  The three frames are the generated ones (the reference's is its generated run with the result dropped), and the ideal
  pass rewrote nothing, so the preservation claim is trivial.
-/
import proofs.«166779_j27986006901490_1_alg».proof.Defs
import proofs.«166779_j27986006901490_1_alg».proof.Proof.Gen.Kernel
import proofs.«166779_j27986006901490_1_alg».proof.Proof.Gen.Kernel.Skeleton
import proofs.«166779_j27986006901490_1_alg».proof.Proof.Gen.Kernel.Launch
import proofs.«166779_j27986006901490_1_alg».proof.Proof.Gen.Kernel.Points
import proofs.«166779_j27986006901490_1_alg».proof.Proof.Gen.Kernel.Frame
import proofs.«166779_j27986006901490_1_alg».proof.Proof.Gen.KernelIdeal
import proofs.«166779_j27986006901490_1_alg».proof.Proof.Gen.KernelIdeal.Skeleton
import proofs.«166779_j27986006901490_1_alg».proof.Proof.Gen.KernelIdeal.Launch
import proofs.«166779_j27986006901490_1_alg».proof.Proof.Gen.KernelIdeal.Points
import proofs.«166779_j27986006901490_1_alg».proof.Proof.Gen.KernelIdeal.Frame
import proofs.«166779_j27986006901490_1_alg».proof.Proof.Gen.ReferenceIdeal
import proofs.«166779_j27986006901490_1_alg».proof.Proof.Gen.Pre_finite_inputs
import proofs.«166779_j27986006901490_1_alg».proof.Proof.Gen.KernelIdeal.Value
import proofs.«166779_j27986006901490_1_alg».proof.Proof.Gen.ReferenceIdeal.Run
import proofs.«166779_j27986006901490_1_alg».proof.Proof.Gen.ReferenceIdeal.Read
import proofs.«166779_j27986006901490_1_alg».proof.Proof.KernelRows
import proofs.«166779_j27986006901490_1_alg».proof.Proof.GatheredRows
import proofs.«166779_j27986006901490_1_alg».proof.Proof.ReferenceProjection
import Idealize.ShloMosaic.Adequacy
import Idealize.ShloMosaic.Init

noncomputable section

namespace Cert.Proof

open Idealize.ShloMosaic Idealize.ShloMosaic.TcCoe Idealize.SL.Sem

/-- The reference terminates and leaves its arguments alone: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the edge projection of the same two gathered
    arrays, the weights and the bias. -/
theorem equal_results : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v43_eq, Cert.ReferenceIdeal.Projection.result_eq, a0, a1, a2, a3, a4]
  show _ = Cert.EdgeProjection.projected (Cert.KernelIdeal.Gen.V m c Cert.KernelIdeal.main_v28)
    (Cert.KernelIdeal.Gen.V m c Cert.KernelIdeal.main_v35) (Cert.KernelIdeal.Gen.V m c Cert.KernelIdeal.main_arg3)
    (Cert.KernelIdeal.Gen.V m c Cert.KernelIdeal.main_arg4)
  rw [Cert.KernelIdeal.Gathered.src_eq, Cert.KernelIdeal.Gathered.dst_eq, Cert.KernelIdeal.Gen.V_main_arg3,
    Cert.KernelIdeal.Gen.V_main_arg4]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    equal_results⟩

end Cert.Proof

end
